-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x16x64x64 : Shape := ⟨4, ![512, 16, 64, 64]⟩
abbrev S512x64x64 : Shape := ⟨3, ![512, 64, 64]⟩
abbrev S_ : Shape := ⟨0, ![]⟩

class Facts : Prop where
  bcast_S_S512x16x64x64 : S_.BroadcastsInDim S512x16x64x64 (![] : Fin 0 → Fin S512x16x64x64.rank)
  reducesTo_S512x16x64x64_S_d0_1_2_3 : S512x16x64x64.ReducesTo [0, 1, 2, 3] S_
  h_S_ : 0 < S_.numel

variable [Facts]

def fn {F : FTy → Type} [FloatOps F] (main_arg0 : FVec F S512x16x64x64 .f32) (main_arg1 : IVec S512x64x64 32) : IVec S_ 1 :=
  let main_v0 : FVec F S512x16x64x64 .f32 := Host.absf main_arg0
  let main_cst : FVec F S_ .f32 := constant S_ .f32 0x7F800000#32
  let main_v1 : FVec F S512x16x64x64 .f32 := broadcastInDim S512x16x64x64 ![] bcast_S_S512x16x64x64 main_cst
  let main_v2 : IVec S512x16x64x64 1 := cmpf .olt main_v0 main_v1
  let main_c : IVec S_ 1 := constantI S_ 1 1#1
  let main_v3 : IVec S_ 1 := (fun x v => Host.reduce IntOp.andi x v reducesTo_S512x16x64x64_S_d0_1_2_3 h_S_) main_v2 main_c
  main_v3
-- ==== Kernel.lean ====
abbrev S512x16x64x64 : Shape := ⟨4, ![512, 16, 64, 64]⟩
abbrev S512x64x64 : Shape := ⟨3, ![512, 64, 64]⟩
abbrev S512x16x4096 : Shape := ⟨3, ![512, 16, 4096]⟩
abbrev S512x4096 : Shape := ⟨2, ![512, 4096]⟩
abbrev S512x16 : Shape := ⟨2, ![512, 16]⟩
abbrev S16x16x4096 : Shape := ⟨3, ![16, 16, 4096]⟩
abbrev S16x4096 : Shape := ⟨2, ![16, 4096]⟩
abbrev S16x16 : Shape := ⟨2, ![16, 16]⟩
abbrev S16x1x4096 : Shape := ⟨3, ![16, 1, 4096]⟩
abbrev S16x16x1 : Shape := ⟨3, ![16, 16, 1]⟩
abbrev S16x16x10 : Shape := ⟨3, ![16, 16, 10]⟩
abbrev S_ : Shape := ⟨0, ![]⟩

abbrev nBuf : Space → Nat
  | .hbm => 9
  | .vmem => 6
  | .smem => 0
  | _ => 0

abbrev bufTy : (tb : Table) → Fin (tcTables nBuf tb) → BufTy
  | .hbm, ⟨0, _⟩ => ⟨S512x16x64x64, .f32⟩
  | .hbm, ⟨1, _⟩ => ⟨S512x64x64, .i32⟩
  | .hbm, ⟨2, _⟩ => ⟨S512x16x4096, .f32⟩
  | .hbm, ⟨3, _⟩ => ⟨S512x4096, .i32⟩
  | .hbm, ⟨4, _⟩ => ⟨S512x16, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S16x16x4096, .f32⟩
  | .local _ .vmem, ⟨1, _⟩ => ⟨S16x16x4096, .f32⟩
  | .local _ .vmem, ⟨2, _⟩ => ⟨S16x4096, .i32⟩
  | .local _ .vmem, ⟨3, _⟩ => ⟨S16x4096, .i32⟩
  | .local _ .vmem, ⟨4, _⟩ => ⟨S16x16, .f32⟩
  | .local _ .vmem, ⟨5, _⟩ => ⟨S16x16, .f32⟩
  | _, _ => ⟨S512x16x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x16x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S512x16x64x64_S512x16x4096 : S512x16x64x64.ShapeCasts S512x16x4096
  shapeCasts_S512x64x64_S512x4096 : S512x64x64.ShapeCasts S512x4096
  inb_S16x16x4096_S16x16x4096_0_0_0 : ∀ a, (![0, 0, 0] : Fin 3 → Nat) a + S16x16x4096.size a ≤ S16x16x4096.size a
  h_S16x16x4096 : 0 < S16x16x4096.numel
  shapeCasts_S16x16x4096_S16x16x4096 : S16x16x4096.ShapeCasts S16x16x4096
  inb_S16x4096_S16x4096_0_0 : ∀ a, (![0, 0] : Fin 2 → Nat) a + S16x4096.size a ≤ S16x4096.size a
  h_S16x4096 : 0 < S16x4096.numel
  shapeCasts_S16x4096_S16x4096 : S16x4096.ShapeCasts S16x4096
  natLt_1_32 : 1 < 32
  shapeCasts_S16x4096_S16x1x4096 : S16x4096.ShapeCasts S16x1x4096
  broadcasts_S16x1x4096_S16x16x4096 : S16x1x4096.Broadcasts S16x16x4096
  reduces_S16x16x4096_S16x16 : S16x16x4096.Reduces [2] S16x16
  shapeCasts_S16x16_S16x16x1 : S16x16.ShapeCasts S16x16x1
  concatenates_S16x16x1_S16x16x1_S16x16x1_S16x16x1_S16x16x1_S16x16x1_S16x16x1_S16x16x1_S16x16x1_S16x16x1_S16x16x10_d2 : Shape.Concatenates [S16x16x1, S16x16x1, S16x16x1, S16x16x1, S16x16x1, S16x16x1, S16x16x1, S16x16x1, S16x16x1, S16x16x1] S16x16x10 2
  reduces_S16x16x10_S16x16 : S16x16x10.Reduces [2] S16x16
  broadcasts_S16x16x1_S16x16x10 : S16x16x1.Broadcasts S16x16x10
  inb_S16x16_S16x16_0_0 : ∀ a, (![0, 0] : Fin 2 → Nat) a + S16x16.size a ≤ S16x16.size a
  h_S16x16 : 0 < S16x16.numel
  reducesTo_S512x16_S_d0_1 : S512x16.ReducesTo [0, 1] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x16x4096.size a ≤ S512x16x4096.size a
  hwx0_0 : ∀ i : grid0.Coords, EltTy.bits .f32 = 32 ∨ (Rect.block (s := S512x16x4096) S16x16x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x4096.size a ≤ S512x4096.size a
  hwx0_1 : ∀ i : grid0.Coords, EltTy.bits .i32 = 32 ∨ (Rect.block (s := S512x4096) S16x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x16.size a ≤ S512x16.size a
  hwx0_2 : ∀ i : grid0.Coords, EltTy.bits .f32 = 32 ∨ (Rect.block (s := S512x16) S16x16.size (cc0_transform_2 i) (hinb0_2 i)).WholeWords (EltTy.packing .f32)

variable [Facts₀]

abbrev win0_0 : Pipeline.Window sig grid0 :=
  Pipeline.Window.ofSpec (Memref.whole main_v0) S16x16x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S16x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S16x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S512x16x64x64 : Shape := ⟨4, ![512, 16, 64, 64]⟩
abbrev S512x64x64 : Shape := ⟨3, ![512, 64, 64]⟩
abbrev S512x16x4096 : Shape := ⟨3, ![512, 16, 4096]⟩
abbrev S512x4096 : Shape := ⟨2, ![512, 4096]⟩
abbrev S512x4096x1 : Shape := ⟨3, ![512, 4096, 1]⟩
abbrev S1x1x10 : Shape := ⟨3, ![1, 1, 10]⟩
abbrev S512x4096x10 : Shape := ⟨3, ![512, 4096, 10]⟩
abbrev S512x16x10 : Shape := ⟨3, ![512, 16, 10]⟩
abbrev S_ : Shape := ⟨0, ![]⟩
abbrev S512x16 : Shape := ⟨2, ![512, 16]⟩
abbrev S512x16x1 : Shape := ⟨3, ![512, 16, 1]⟩

abbrev nBuf : Space → Nat
  | .hbm => 31
  | .vmem => 0
  | .smem => 0
  | _ => 0

abbrev bufTy : (tb : Table) → Fin (tcTables nBuf tb) → BufTy
  | .hbm, ⟨0, _⟩ => ⟨S512x16x64x64, .f32⟩
  | .hbm, ⟨1, _⟩ => ⟨S512x64x64, .i32⟩
  | .hbm, ⟨2, _⟩ => ⟨S512x16x4096, .f32⟩
  | .hbm, ⟨3, _⟩ => ⟨S512x4096, .i32⟩
  | .hbm, ⟨4, _⟩ => ⟨S512x4096x1, .i32⟩
  | .hbm, ⟨5, _⟩ => ⟨S1x1x10, .i32⟩
  | .hbm, ⟨6, _⟩ => ⟨S512x4096x10, .i32⟩
  | .hbm, ⟨7, _⟩ => ⟨S512x4096x10, .i32⟩
  | .hbm, ⟨8, _⟩ => ⟨S512x4096x10, .i1⟩
  | .hbm, ⟨9, _⟩ => ⟨S512x4096x10, .f32⟩
  | .hbm, ⟨10, _⟩ => ⟨S512x16x10, .f32⟩
  | .hbm, ⟨11, _⟩ => ⟨S_, .f32⟩
  | .hbm, ⟨12, _⟩ => ⟨S512x16, .f32⟩
  | .hbm, ⟨13, _⟩ => ⟨S512x16x1, .f32⟩
  | .hbm, ⟨14, _⟩ => ⟨S_, .f32⟩
  | .hbm, ⟨15, _⟩ => ⟨S512x16x1, .f32⟩
  | .hbm, ⟨16, _⟩ => ⟨S512x16x1, .f32⟩
  | .hbm, ⟨17, _⟩ => ⟨S512x16x10, .f32⟩
  | .hbm, ⟨18, _⟩ => ⟨S512x16x10, .f32⟩
  | .hbm, ⟨19, _⟩ => ⟨S_, .f32⟩
  | .hbm, ⟨20, _⟩ => ⟨S512x16x10, .f32⟩
  | .hbm, ⟨21, _⟩ => ⟨S512x16x10, .f32⟩
  | .hbm, ⟨22, _⟩ => ⟨S512x16x10, .f32⟩
  | .hbm, ⟨23, _⟩ => ⟨S512x16x10, .f32⟩
  | .hbm, ⟨24, _⟩ => ⟨S_, .f32⟩
  | .hbm, ⟨25, _⟩ => ⟨S512x16, .f32⟩
  | .hbm, ⟨26, _⟩ => ⟨S512x16, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | _, _ => ⟨S512x16x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩

abbrev nD : Nat := 1
abbrev τ : Topo := Topo.v7x

variable {F : FTy → Type} [FloatOps F]

class Facts₀ : Prop where
  shapeCasts_S512x16x64x64_S512x16x4096 : S512x16x64x64.ShapeCasts S512x16x4096
  shapeCasts_S512x64x64_S512x4096 : S512x64x64.ShapeCasts S512x4096
  bcast_S512x4096_S512x4096x1_0_1 : S512x4096.BroadcastsInDim S512x4096x1 (![0, 1] : Fin 2 → Fin S512x4096x1.rank)
  bcast_S512x4096x1_S512x4096x10_0_1_2 : S512x4096x1.BroadcastsInDim S512x4096x10 (![0, 1, 2] : Fin 3 → Fin S512x4096x10.rank)
  bcast_S1x1x10_S512x4096x10_0_1_2 : S1x1x10.BroadcastsInDim S512x4096x10 (![0, 1, 2] : Fin 3 → Fin S512x4096x10.rank)
  reducesTo_S512x16x10_S512x16_d2 : S512x16x10.ReducesTo [2] S512x16
  h_S_ : 0 < S_.numel
  bcast_S512x16_S512x16x1_0_1 : S512x16.BroadcastsInDim S512x16x1 (![0, 1] : Fin 2 → Fin S512x16x1.rank)
  bcast_S_S512x16x1 : S_.BroadcastsInDim S512x16x1 (![] : Fin 0 → Fin S512x16x1.rank)
  bcast_S512x16x1_S512x16x10_0_1_2 : S512x16x1.BroadcastsInDim S512x16x10 (![0, 1, 2] : Fin 3 → Fin S512x16x10.rank)
  bcast_S_S512x16x10 : S_.BroadcastsInDim S512x16x10 (![] : Fin 0 → Fin S512x16x10.rank)
  reducesTo_S512x16_S_d0_1 : S512x16.ReducesTo [0, 1] S_
  dot_S512x16x4096_S512x4096x10_S512x16x10_2_1_1_2_0_0_wf : DotDims.WF S512x16x4096 S512x4096x10 S512x16x10 [2] [1] [1] [2] [0] [0]

variable [Facts₀]

def dot_S512x16x4096_S512x4096x10_S512x16x10_2_1_1_2_0_0 : DotDims S512x16x4096 S512x4096x10 S512x16x10 where
  lhsContracting := [2]
  rhsContracting := [1]
  lhsNonContracting := [1]
  rhsNonContracting := [2]
  lhsBatch := [0]
  rhsBatch := [0]
  wf := dot_S512x16x4096_S512x4096x10_S512x16x10_2_1_1_2_0_0_wf

class Facts : Prop extends Facts₀ where

variable [Facts]
-- ==== Proof.Spec.lean ====
/-
  The mathematics both programs compute, stated once over plain index types.

  A picture is a row of `n` cells, each cell holding a colour (a 32-bit word); an attention row gives every cell a
  weight. The weighted histogram of the row over the ten colours `0 … 9` gives colour `c` the total weight of the
  cells whose colour is `c` (`hist`): a cell counts with the factor `1` when its word equals `c` and `0` otherwise
  (`ind`), so a word outside `0 … 9` counts for no colour. The histogram is normalised by its total plus `ε`, and the
  entropy of the normalised histogram, with `ε` added under the logarithm, is `ent`:

      ent w = − Σ_c  p_c · log (p_c + ε),      p_c = w_c / (Σ_c' w_c' + ε).

  Everything is read on the extended reals: the quotient is the ideal instance's division, the logarithm its
  logarithm, and `ε` is the value the f32 word `0x322BCC77` denotes (both programs carry that same word, so it is
  never evaluated).
-/
import Idealize.ShloMosaic.PureOps.Ideal
import Idealize.ShloMosaic.PureOps.Ideal.Laws
import Idealize.ShloMosaic.Lib.ValueIdx

noncomputable section

namespace Cert.ColourEntropy

open Idealize.ShloMosaic Idealize.ShloMosaic.ValueIdx
open scoped BigOperators

/-- The small constant both programs add to the histogram's total and under the logarithm. -/
def eps : EReal := Ideal.ofBits .f32 0x322BCC77#32

/-- `1` on a cell whose colour word is `c`, `0` on any other cell: the one-bit comparison read as a number. -/
def ind (g c : BitVec 32) : EReal := (((IntOp.cmpi .eq g c).toNat : ℝ) : EReal)

/-- The weighted histogram of a row: colour `c` gets the total weight of the cells of colour `c`. -/
def hist {n : Nat} (a : Fin n → EReal) (g : Fin n → BitVec 32) (c : Fin 10) : EReal :=
  ∑ h : Fin n, a h * ind (g h) (BitVec.ofNat 32 c.val)

/-- The entropy of a histogram over ten colours, normalised by its total plus `ε`. -/
def ent (w : Fin 10 → EReal) : EReal :=
  -(∑ c : Fin 10, Ideal.div (w c) ((∑ c' : Fin 10, w c') + eps)
      * Ideal.log (Ideal.div (w c) ((∑ c' : Fin 10, w c') + eps) + eps))

/-- The entropies of all rows of all pictures: entry `(b, s)` is the entropy of the histogram that attention row
    `(b, s)` weighs picture `b`'s 4096 cells with. `X` is the attention weights with the two pixel axes flattened,
    `G` the pictures' colour words likewise. -/
def rowEntropy (X : FVec Ideal ⟨3, ![512, 16, 4096]⟩ .f32) (G : IVec ⟨2, ![512, 4096]⟩ 32) :
    FVec Ideal ⟨2, ![512, 16]⟩ .f32 :=
  fun i => ent (hist (fun h : Fin 4096 => X (ix3 (i 0) (i 1) h)) (fun h : Fin 4096 => G (ix2 (i 0) h)))

/-- A condition widened to a word and converted as a signed integer is the condition read as `0` or `1`. -/
theorem sitofp_setWidth_bit (b : BitVec 1) :
    (FloatOps.sitofp (F := Ideal) .f32 (b.setWidth 32) : EReal) = ((b.toNat : ℝ) : EReal) := by
  show ((((b.setWidth 32).toInt : ℤ) : ℝ) : EReal) = ((b.toNat : ℝ) : EReal)
  have h : ∀ b : BitVec 1, (b.setWidth 32).toInt = (b.toNat : ℤ) := by decide
  rw [h b]
  norm_cast

/-- The host's conversion of a condition is the condition read as `0` or `1`. -/
theorem uitofp_bit (b : BitVec 1) :
    (FloatOps.uitofp (F := Ideal) .f32 b : EReal) = ((b.toNat : ℝ) : EReal) := rfl

end Cert.ColourEntropy

end
-- ==== Proof.Tile.lean ====
/-
  The kernel's body, read at one entry of its output tile, at the ideal values.

  At a grid point the body holds a tile `x` of 16 pictures' attention rows ([16, 16, 4096]: picture, row, cell) and the
  tile `g` of those pictures' colour words ([16, 4096]: picture, cell). For each colour word `cw` it masks the cells of
  that colour, lays the mask along the 16 rows, multiplies and sums over the cells: entry `(p, q)` of that lane sum is
  the weight of colour `cw` in row `(p, q)`'s histogram (`colSum_apply`). The ten sums, each with a unit axis added, are
  laid side by side along a third axis of extent 10 (`hist10_apply`); the body then sums that axis, adds `ε`, divides,
  adds `ε` again, takes the logarithm, multiplies, sums again and subtracts the sum from zero: entry `(p, q)` is the
  entropy of the row's histogram (`entTile_apply`), since `0 − s = −s` on every extended real.
-/
import proofs.«131846_j90915867722048_1_alg».proof.Proof.Gen.KernelIdeal.Skeleton
import proofs.«131846_j90915867722048_1_alg».proof.Proof.Spec
import Idealize.ShloMosaic.Lib.Pipeline.Value
import Idealize.ShloMosaic.Lib.ValueIdx
import Idealize.ShloMosaic.PureOps.Ideal.Laws

noncomputable section

namespace Cert.KernelIdeal.Tile

open Cert.KernelIdeal Cert.KernelIdeal.Gen Cert.ColourEntropy
open Idealize.ShloMosaic Idealize.ShloMosaic.ValueIdx
open scoped BigOperators

/-! ## One colour's weight in every row of the tile -/

/-- The lane sum the body takes for the colour word `cw`: the tile times the colour's mask laid along the rows, summed
    over the cells. -/
def colSum (cw : BitVec 32) (x : FVec Ideal S16x16x4096 .f32) (g : IVec S16x4096 32) : FVec Ideal S16x16 .f32 :=
  multiReduction .add [2] S16x16
    (mulf x (broadcastTo S16x16x4096
      (shapeCast S16x1x4096 (sitofp .f32 (extui 32 (cmpi .eq g (broadcast S16x4096 cw)) natLt_1_32))
        shapeCasts_S16x4096_S16x1x4096) broadcasts_S16x1x4096_S16x16x4096))
    0x00000000#32 reduces_S16x16x4096_S16x16 (.inl rfl) rfl

/-- The index the reduction over the cell axis reads: row `(p, q)` with the cell put back. -/
theorem lift_cells (p q : Fin 16) (h : Fin 4096) :
    (reduces_S16x16x4096_S16x16).lift (ix2 p q) h = ix3 p q h :=
  funext fun a => Fin.ext (by match a with | ⟨0, _⟩ => rfl | ⟨1, _⟩ => rfl | ⟨2, _⟩ => rfl)

/-- The colour's mask laid along the rows, at (p, q, h), is `1` when cell `h` of picture `p` has the colour, else `0`:
    the broadcast reads row `0` of the one-row cast, the cast reads the mask at `(p, h)`, and a condition widened and
    converted is the condition as a number. -/
theorem mask_apply (cw : BitVec 32) (g : IVec S16x4096 32) (p q : Fin 16) (h : Fin 4096) :
    (broadcastTo S16x16x4096
      (shapeCast S16x1x4096 (sitofp (F := Ideal) .f32 (extui 32 (cmpi .eq g (broadcast S16x4096 cw)) natLt_1_32))
        shapeCasts_S16x4096_S16x1x4096) broadcasts_S16x1x4096_S16x16x4096) (ix3 p q h)
      = ind (g (ix2 p h)) cw := by
  refine (broadcastTo_apply _ broadcasts_S16x1x4096_S16x16x4096 (ix3 p q h) (ix3 p (0 : Fin 1) h) ?_).trans ?_
  · intro a
    match a with
    | ⟨0, _⟩ => show p.val = if (16 : Nat) = 1 then 0 else p.val; rw [if_neg (by decide)]
    | ⟨1, _⟩ => show 0 = if (1 : Nat) = 1 then 0 else q.val; rw [if_pos rfl]
    | ⟨2, _⟩ => show h.val = if (4096 : Nat) = 1 then 0 else h.val; rw [if_neg (by decide)]
  refine (shapeCast_apply _ shapeCasts_S16x4096_S16x1x4096 (ix3 p (0 : Fin 1) h) (ix2 p h) ?_).trans ?_
  · rw [Shape.rowMajor_val_two, Shape.rowMajor_val_three]
    show p.val * 4096 + h.val = (p.val * 1 + 0) * 4096 + h.val
    omega
  exact sitofp_setWidth_bit _

/-- Entry `(p, q)` of the lane sum is the weight of colour `cw` in row `(p, q)`: the sum over the cells of the row's
    weight times the mask. -/
theorem colSum_apply (cw : BitVec 32) (x : FVec Ideal S16x16x4096 .f32) (g : IVec S16x4096 32) (p q : Fin 16) :
    colSum cw x g (ix2 p q) = ∑ h : Fin 4096, x (ix3 p q h) * ind (g (ix2 p h)) cw := by
  unfold colSum
  refine (Ideal.multiReduction_add_single _ 0x00000000#32 reduces_S16x16x4096_S16x16 (.inl rfl) rfl (ix2 p q)).trans ?_
  refine Finset.sum_congr rfl fun h _ => ?_
  rw [lift_cells p q h]
  exact congrArg (x (ix3 p q h) * ·) (mask_apply cw g p q h)

/-- A lane sum given a trailing unit axis reads, at `(p, q, 0)`, the lane sum at `(p, q)`. -/
theorem addUnit_apply (v : FVec Ideal S16x16 .f32) (p q : Fin 16) :
    shapeCast S16x16x1 v shapeCasts_S16x16_S16x16x1 (ix3 p q (0 : Fin 1)) = v (ix2 p q) := by
  refine shapeCast_apply v shapeCasts_S16x16_S16x16x1 (ix3 p q (0 : Fin 1)) (ix2 p q) ?_
  rw [Shape.rowMajor_val_two, Shape.rowMajor_val_three]
  show p.val * 16 + q.val = (p.val * 16 + q.val) * 1 + 0
  omega

/-! ## The ten colours side by side -/

/-- A concatenation along the third axis of pieces of extent one there: at `(p, q, k)` it reads piece `k` at
    `(p, q, 0)`, the pieces before it taking up `k` places. -/
theorem piece_apply (xs : List ((s : Shape) × (s.Idx → Ideal .f32)))
    (hc : Shape.Concatenates (xs.map (·.1)) S16x16x10 2) (p q : Fin 16) (k : Nat) (hk10 : k < 10) (hk : k < xs.length)
    (vk : FVec Ideal S16x16x1 .f32) (hxk : xs[k] = ⟨S16x16x1, vk⟩)
    (hpre : (((xs.take k).map (·.1)).map
      (fun s => if h : s.rank = S16x16x10.rank then s.size ((2 : Fin S16x16x10.rank).cast h.symm) else 0)).sum = k) :
    concatenate S16x16x10 2 xs hc (ix3 p q (⟨k, hk10⟩ : Fin 10)) = vk (ix3 p q (0 : Fin 1)) := by
  refine concatenate_apply_piece (2 : Fin S16x16x10.rank) xs hc (ix3 p q (⟨k, hk10⟩ : Fin 10)) k hk
    S16x16x1 vk hxk rfl k hpre (ix3 p q (0 : Fin 1)) ?_ ?_
  · intro b hb
    match b with
    | ⟨0, _⟩ => rfl
    | ⟨1, _⟩ => rfl
    | ⟨2, _⟩ => exact absurd rfl hb
  · show k + 0 = k
    omega

/-- The ten pieces laid along the third axis: at `(p, q, c)` the array reads piece `c` at `(p, q, 0)`. -/
theorem hist10_apply (v0 v1 v2 v3 v4 v5 v6 v7 v8 v9 : FVec Ideal S16x16x1 .f32) (p q : Fin 16) (c : Fin 10) :
    concatenate S16x16x10 2 [⟨S16x16x1, v0⟩, ⟨S16x16x1, v1⟩, ⟨S16x16x1, v2⟩, ⟨S16x16x1, v3⟩, ⟨S16x16x1, v4⟩,
        ⟨S16x16x1, v5⟩, ⟨S16x16x1, v6⟩, ⟨S16x16x1, v7⟩, ⟨S16x16x1, v8⟩, ⟨S16x16x1, v9⟩]
        concatenates_S16x16x1_S16x16x1_S16x16x1_S16x16x1_S16x16x1_S16x16x1_S16x16x1_S16x16x1_S16x16x1_S16x16x1_S16x16x10_d2
        (ix3 p q c)
      = (![v0, v1, v2, v3, v4, v5, v6, v7, v8, v9] c) (ix3 p q (0 : Fin 1)) := by
  match c with
  | ⟨0, _⟩ => exact piece_apply _ _ p q 0 (by decide) (by show (0 : Nat) < 10; decide) v0 rfl rfl
  | ⟨1, _⟩ => exact piece_apply _ _ p q 1 (by decide) (by show (1 : Nat) < 10; decide) v1 rfl rfl
  | ⟨2, _⟩ => exact piece_apply _ _ p q 2 (by decide) (by show (2 : Nat) < 10; decide) v2 rfl rfl
  | ⟨3, _⟩ => exact piece_apply _ _ p q 3 (by decide) (by show (3 : Nat) < 10; decide) v3 rfl rfl
  | ⟨4, _⟩ => exact piece_apply _ _ p q 4 (by decide) (by show (4 : Nat) < 10; decide) v4 rfl rfl
  | ⟨5, _⟩ => exact piece_apply _ _ p q 5 (by decide) (by show (5 : Nat) < 10; decide) v5 rfl rfl
  | ⟨6, _⟩ => exact piece_apply _ _ p q 6 (by decide) (by show (6 : Nat) < 10; decide) v6 rfl rfl
  | ⟨7, _⟩ => exact piece_apply _ _ p q 7 (by decide) (by show (7 : Nat) < 10; decide) v7 rfl rfl
  | ⟨8, _⟩ => exact piece_apply _ _ p q 8 (by decide) (by show (8 : Nat) < 10; decide) v8 rfl rfl
  | ⟨9, _⟩ => exact piece_apply _ _ p q 9 (by decide) (by show (9 : Nat) < 10; decide) v9 rfl rfl

/-! ## From the histogram tile to the entropy tile -/

/-- What the body computes from the [16, 16, 10] tile of histograms: the entropy of every row. -/
def entTile (C : FVec Ideal S16x16x10 .f32) : FVec Ideal S16x16 .f32 :=
  subf (broadcast S16x16 (Scalar.ofBits .f32 0x00000000#32))
    (multiReduction .add [2] S16x16
      (mulf
        (divf C (broadcastTo S16x16x10
          (addf (shapeCast S16x16x1 (multiReduction .add [2] S16x16 C 0x00000000#32 reduces_S16x16x10_S16x16 (.inl rfl) rfl)
            shapeCasts_S16x16_S16x16x1) (broadcast S16x16x1 (Scalar.ofBits .f32 0x322BCC77#32)))
          broadcasts_S16x16x1_S16x16x10))
        (log (addf
          (divf C (broadcastTo S16x16x10
            (addf (shapeCast S16x16x1 (multiReduction .add [2] S16x16 C 0x00000000#32 reduces_S16x16x10_S16x16 (.inl rfl) rfl)
              shapeCasts_S16x16_S16x16x1) (broadcast S16x16x1 (Scalar.ofBits .f32 0x322BCC77#32)))
            broadcasts_S16x16x1_S16x16x10))
          (broadcast S16x16x10 (Scalar.ofBits .f32 0x322BCC77#32)))))
      0x00000000#32 reduces_S16x16x10_S16x16 (.inl rfl) rfl)

/-- The index the reduction over the colour axis reads: row `(p, q)` with the colour put back. -/
theorem lift_colours (p q : Fin 16) (c : Fin 10) :
    (reduces_S16x16x10_S16x16).lift (ix2 p q) c = ix3 p q c :=
  funext fun a => Fin.ext (by match a with | ⟨0, _⟩ => rfl | ⟨1, _⟩ => rfl | ⟨2, _⟩ => rfl)

/-- The histogram's total plus `ε`, laid along the colour axis, at `(p, q, c)`. -/
theorem total_apply (C : FVec Ideal S16x16x10 .f32) (W : Fin 10 → EReal) (p q : Fin 16)
    (hC : ∀ c : Fin 10, C (ix3 p q c) = W c) (c : Fin 10) :
    (broadcastTo S16x16x10
        (addf (shapeCast S16x16x1 (multiReduction .add [2] S16x16 C 0x00000000#32 reduces_S16x16x10_S16x16 (.inl rfl) rfl)
          shapeCasts_S16x16_S16x16x1) (broadcast S16x16x1 (Scalar.ofBits (F := Ideal) .f32 0x322BCC77#32)))
        broadcasts_S16x16x1_S16x16x10) (ix3 p q c)
      = (∑ c' : Fin 10, W c') + eps := by
  refine (broadcastTo_apply _ broadcasts_S16x16x1_S16x16x10 (ix3 p q c) (ix3 p q (0 : Fin 1)) ?_).trans ?_
  · intro a
    match a with
    | ⟨0, _⟩ => show p.val = if (16 : Nat) = 1 then 0 else p.val; rw [if_neg (by decide)]
    | ⟨1, _⟩ => show q.val = if (16 : Nat) = 1 then 0 else q.val; rw [if_neg (by decide)]
    | ⟨2, _⟩ => show 0 = if (1 : Nat) = 1 then 0 else c.val; rw [if_pos rfl]
  refine congrArg (· + eps) ?_
  refine (addUnit_apply _ p q).trans ?_
  refine (Ideal.multiReduction_add_single C 0x00000000#32 reduces_S16x16x10_S16x16 (.inl rfl) rfl (ix2 p q)).trans ?_
  exact Finset.sum_congr rfl fun c' _ => by rw [lift_colours p q c', hC c']

/-- Entry `(p, q)` of the entropy tile is the entropy of the histogram the tile holds along the colour axis there. -/
theorem entTile_apply (C : FVec Ideal S16x16x10 .f32) (W : Fin 10 → EReal) (p q : Fin 16)
    (hC : ∀ c : Fin 10, C (ix3 p q c) = W c) : entTile C (ix2 p q) = ent W := by
  unfold entTile ent
  show Ideal.ofBits .f32 0x00000000#32 - _ = _
  rw [Ideal.ofBits_zero_f32, zero_sub]
  refine congrArg (fun s : EReal => -s) ?_
  refine (Ideal.multiReduction_add_single _ 0x00000000#32 reduces_S16x16x10_S16x16 (.inl rfl) rfl (ix2 p q)).trans ?_
  refine Finset.sum_congr rfl fun c _ => ?_
  rw [lift_colours p q c]
  show Ideal.div (C (ix3 p q c)) _ * Ideal.log (Ideal.div (C (ix3 p q c)) _ + Ideal.ofBits .f32 0x322BCC77#32) = _
  rw [total_apply C W p q hC c, hC c]
  rfl

/-! ## The body's stored value -/

/-- One colour's piece of the histogram tile as the body spells it: the lane sum over the loaded blocks (each passed
    through a shape cast to its own shape), with the trailing unit axis added. -/
def colPiece (cw : BitVec 32) (x : Vec Ideal S16x16x4096 .f32) (g : Vec Ideal S16x4096 .i32) : FVec Ideal S16x16x1 .f32 :=
  shapeCast S16x16x1
    (colSum cw (shapeCast S16x16x4096 x shapeCasts_S16x16x4096_S16x16x4096) (shapeCast S16x4096 g shapeCasts_S16x4096_S16x4096))
    shapeCasts_S16x16_S16x16x1

/-- The piece at `(p, q, 0)` is the weight of colour `cw` in row `(p, q)`. -/
theorem colPiece_apply (cw : BitVec 32) (x : Vec Ideal S16x16x4096 .f32) (g : Vec Ideal S16x4096 .i32) (p q : Fin 16) :
    colPiece cw x g (ix3 p q (0 : Fin 1)) = ∑ h : Fin 4096, x (ix3 p q h) * ind (g (ix2 p h)) cw := by
  unfold colPiece
  rw [shapeCast_self, shapeCast_self]
  exact (addUnit_apply _ p q).trans (colSum_apply cw x g p q)

/-- The value the body stores is the entropy tile of the ten colours' pieces laid side by side: the body's named
    pieces unfold to exactly this term. -/
theorem pay_eq (x0 : Vec Ideal S16x16x4096 .f32) (x1 : Vec Ideal S16x4096 .i32) :
    k0_pay1 (k0_pay9 (k0_pay4 x0 x1)) (k0_pay10 (k0_pay5 x0 x1)) (k0_pay11 (k0_pay6 x0 x1)) (k0_pay12 (k0_pay7 x0 x1))
        (k0_pay13 (k0_pay8 x0 x1)) (k0_pay14 (k0_pay2 x0) (k0_pay3 x1)) (k0_pay15 (k0_pay2 x0) (k0_pay3 x1))
        (k0_pay16 (k0_pay2 x0) (k0_pay3 x1)) (k0_pay17 (k0_pay2 x0) (k0_pay3 x1)) (k0_pay18 (k0_pay2 x0) (k0_pay3 x1))
      = entTile (concatenate S16x16x10 2 [⟨S16x16x1, colPiece 0#32 x0 x1⟩, ⟨S16x16x1, colPiece 1#32 x0 x1⟩,
          ⟨S16x16x1, colPiece 2#32 x0 x1⟩, ⟨S16x16x1, colPiece 3#32 x0 x1⟩, ⟨S16x16x1, colPiece 4#32 x0 x1⟩,
          ⟨S16x16x1, colPiece 5#32 x0 x1⟩, ⟨S16x16x1, colPiece 6#32 x0 x1⟩, ⟨S16x16x1, colPiece 7#32 x0 x1⟩,
          ⟨S16x16x1, colPiece 8#32 x0 x1⟩, ⟨S16x16x1, colPiece 9#32 x0 x1⟩]
          concatenates_S16x16x1_S16x16x1_S16x16x1_S16x16x1_S16x16x1_S16x16x1_S16x16x1_S16x16x1_S16x16x1_S16x16x1_S16x16x10_d2) :=
  rfl

/-- Entry `(p, q)` of what the body stores is the entropy of the histogram of row `(p, q)` of its blocks. -/
theorem tile_apply (x0 : Vec Ideal S16x16x4096 .f32) (x1 : Vec Ideal S16x4096 .i32) (p q : Fin 16) :
    k0_pay1 (k0_pay9 (k0_pay4 x0 x1)) (k0_pay10 (k0_pay5 x0 x1)) (k0_pay11 (k0_pay6 x0 x1)) (k0_pay12 (k0_pay7 x0 x1))
        (k0_pay13 (k0_pay8 x0 x1)) (k0_pay14 (k0_pay2 x0) (k0_pay3 x1)) (k0_pay15 (k0_pay2 x0) (k0_pay3 x1))
        (k0_pay16 (k0_pay2 x0) (k0_pay3 x1)) (k0_pay17 (k0_pay2 x0) (k0_pay3 x1)) (k0_pay18 (k0_pay2 x0) (k0_pay3 x1))
        (ix2 p q)
      = ent (hist (fun h : Fin 4096 => x0 (ix3 p q h)) (fun h : Fin 4096 => x1 (ix2 p h))) := by
  rw [pay_eq]
  refine entTile_apply _ _ p q fun c => ?_
  rw [hist10_apply]
  match c with
  | ⟨0, _⟩ => exact colPiece_apply 0#32 x0 x1 p q
  | ⟨1, _⟩ => exact colPiece_apply 1#32 x0 x1 p q
  | ⟨2, _⟩ => exact colPiece_apply 2#32 x0 x1 p q
  | ⟨3, _⟩ => exact colPiece_apply 3#32 x0 x1 p q
  | ⟨4, _⟩ => exact colPiece_apply 4#32 x0 x1 p q
  | ⟨5, _⟩ => exact colPiece_apply 5#32 x0 x1 p q
  | ⟨6, _⟩ => exact colPiece_apply 6#32 x0 x1 p q
  | ⟨7, _⟩ => exact colPiece_apply 7#32 x0 x1 p q
  | ⟨8, _⟩ => exact colPiece_apply 8#32 x0 x1 p q
  | ⟨9, _⟩ => exact colPiece_apply 9#32 x0 x1 p q

end Cert.KernelIdeal.Tile

end
-- ==== Proof.Block.lean ====
/-
  The kernel's run, read: the scalar it returns as a function of its two arguments, at the ideal values.

  The grid has 32 points; point `t` stages pictures `16t … 16t + 15`: block `t` of the flattened attention weights
  ([16, 16, 4096] of [512, 16, 4096]), block `t` of the flattened colour words ([16, 4096] of [512, 4096]), and writes
  block `t` ([16, 16]) of the [512, 16] array of entropies. Entry `(p, q)` of what the body stores is the entropy of the
  histogram of row `(p, q)` of its blocks (the tile lemma), and row `(p, q)` of the blocks at point `t` is row
  `(16t + p, q)` of the arrays (`xblk_apply`, `gblk_apply`): so point `t` writes block `t` of `rowEntropy` of the two
  arrays as the region finds them (`flushed_eq`). The 32 blocks tile the [512, 16] array — row `r` lies in block
  `r / 16` —, so the array ends holding `rowEntropy` everywhere (`final_entropy`). The arrays the region finds are the
  two arguments with their pixel axes flattened by the host's reshapes (`X_eq`, `G_eq`); the host lines after the region
  sum the array of entropies from zero and divide by 8192 (`tail_eq`).
-/
import proofs.«131846_j90915867722048_1_alg».proof.Proof.Gen.KernelIdeal.Frame
import proofs.«131846_j90915867722048_1_alg».proof.Proof.Tile
import Idealize.ShloMosaic.Lib.Pipeline.Value
import Idealize.ShloMosaic.Lib.StableHlo.Run
import Idealize.ShloMosaic.Lib.Tactic

noncomputable section

namespace Cert.KernelIdeal.Hand

open Cert.KernelIdeal Cert.KernelIdeal.Gen Cert.KernelIdeal.Tile Cert.ColourEntropy
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz3 : (![0, 0, 0] : Fin 3 → Nat) = fun _ => 0 := funext fun a => by fin_cases a <;> rfl
theorem hz2 : (![0, 0] : Fin 2 → Nat) = fun _ => 0 := funext fun a => by fin_cases a <;> rfl

/-! ## What the body leaves in the output's buffer -/

/-- The body loads its two blocks whole and stores one value through the whole output buffer: entry `(p, q)` of what it
    leaves is the entropy of the histogram of row `(p, q)` of the blocks. -/
theorem out_apply (x0 : Vec Ideal S16x16x4096 .f32) (x1 : Vec Ideal S16x4096 .i32) (p q : Fin 16) :
    out0_2 x0 x1 (ix2 p q) = ent (hist (fun h : Fin 4096 => x0 (ix3 p q h)) (fun h : Fin 4096 => x1 (ix2 p h))) := by
  unfold out0_2
  rw [View.canon_unit_zero hz2]
  simp only [View.ld_unit_zero (S := S16x16x4096) hz3, View.ld_unit_zero (S := S16x4096) hz2]
  exact tile_apply x0 x1 p q

/-- The same against two whole arrays `X`, `G` of which the blocks are rows `16T … 16T + 15`: the entry at `y` is
    `rowEntropy X G` at the array index `k` over it. -/
theorem block_entropy (X : FVec Ideal S512x16x4096 .f32) (G : IVec S512x4096 32) (T : Nat)
    (x0 : Vec Ideal S16x16x4096 .f32) (x1 : Vec Ideal S16x4096 .i32)
    (h0 : ∀ (p q : Fin 16) (h : Fin 4096) (k : S512x16x4096.Idx), (k 0).val = 16 * T + p.val → (k 1).val = q.val →
      (k 2).val = h.val → x0 (ix3 p q h) = X k)
    (h1 : ∀ (p : Fin 16) (h : Fin 4096) (k : S512x4096.Idx), (k 0).val = 16 * T + p.val → (k 1).val = h.val →
      x1 (ix2 p h) = G k)
    (y : S16x16.Idx) (k : S512x16.Idx) (hk0 : (k 0).val = 16 * T + (y 0).val) (hk1 : (k 1).val = (y 1).val) :
    out0_2 x0 x1 y = rowEntropy X G k := by
  obtain ⟨p, q, rfl⟩ : ∃ (p q : Fin 16), y = ix2 p q := ⟨y 0, y 1, eq_ix2 y⟩
  rw [out_apply]
  unfold rowEntropy
  have ea : (fun h : Fin 4096 => x0 (ix3 p q h)) = fun h : Fin 4096 => X (ix3 (k 0) (k 1) h) :=
    funext fun h => h0 p q h _ hk0 hk1 rfl
  have eg : (fun h : Fin 4096 => x1 (ix2 p h)) = fun h : Fin 4096 => G (ix2 (k 0) h) :=
    funext fun h => h1 p h _ hk0 rfl
  rw [ea, eg]

/-! ## The blocks at a grid point -/

/-- The printed index maps, decided over the 32 points: each window's block index is the point itself on the picture
    axis and zero on the others. -/
theorem idx_facts : ∀ t : Fin cfg0.N, win0_0.index t (0 : Fin 3) = t.val ∧ win0_0.index t (1 : Fin 3) = 0
    ∧ win0_0.index t (2 : Fin 3) = 0 ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `(p, q)` of the weights' block at point `t` is row `(16t + p, q)` of the flattened weights. -/
theorem xblk_apply (c : Dev nD) (t : Fin cfg0.N) (p q : Fin 16) (h : Fin 4096) (k : S512x16x4096.Idx)
    (hk0 : (k 0).val = 16 * t.val + p.val) (hk1 : (k 1).val = q.val) (hk2 : (k 2).val = h.val) :
    (iblk m c 0 t : Vec Ideal S16x16x4096 .f32) (ix3 p q h) = (V m c main_v0 : S512x16x4096.Idx → Elt Ideal .f32) k := by
  obtain ⟨e0, e1, e2, -, -, -, -⟩ := idx_facts t
  unfold iblk
  rw [View.read_apply]
  show V m c main_v0 _ = V m c main_v0 _
  congr 1
  funext a
  apply Fin.ext
  match a with
  | ⟨0, _⟩ => show win0_0.index t 0 * 16 + 1 * p.val = (k 0).val; rw [e0, hk0]; omega
  | ⟨1, _⟩ => show win0_0.index t 1 * 16 + 1 * q.val = (k 1).val; rw [e1, hk1]; omega
  | ⟨2, _⟩ => show win0_0.index t 2 * 4096 + 1 * h.val = (k 2).val; rw [e2, hk2]; omega

/-- Row `p` of the colour words' block at point `t` is row `16t + p` of the flattened colour words. -/
theorem gblk_apply (c : Dev nD) (t : Fin cfg0.N) (p : Fin 16) (h : Fin 4096) (k : S512x4096.Idx)
    (hk0 : (k 0).val = 16 * t.val + p.val) (hk1 : (k 1).val = h.val) :
    (iblk m c 1 t : Vec Ideal S16x4096 .i32) (ix2 p h) = (V m c main_v1 : S512x4096.Idx → Elt Ideal .i32) k := by
  obtain ⟨-, -, -, e0, e1, -, -⟩ := idx_facts t
  unfold iblk
  rw [View.read_apply]
  show V m c main_v1 _ = V m c main_v1 _
  congr 1
  funext a
  apply Fin.ext
  match a with
  | ⟨0, _⟩ => show win0_1.index t 0 * 16 + 1 * p.val = (k 0).val; rw [e0, hk0]; omega
  | ⟨1, _⟩ => show win0_1.index t 1 * 4096 + 1 * h.val = (k 1).val; rw [e1, hk1]; omega

/-! ## From the blocks to the array -/

/-- What point `t` writes back is block `t` of `rowEntropy` of the two arrays as the region finds them. -/
theorem flushed_eq (c : Dev nD) (t : Fin cfg0.N) :
    (dats m 0 c).flushed 2 t
      = ((cfg0.win 2).blk t).view.read (Elt Ideal) (rowEntropy (V m c main_v0) (V m c main_v1)) := by
  show (cfg0.win 2).cut (grid0.coords t) ((dats m 0 c).after 2 t) = _
  rw [after0_2]
  obtain ⟨-, -, -, -, -, e0, e1⟩ := idx_facts t
  funext j
  refine block_entropy (V m c main_v0) (V m c main_v1) t.val (iblk m c 0 t) (iblk m c 1 t)
    (fun p q h k hk0 hk1 hk2 => xblk_apply m c t p q h k hk0 hk1 hk2)
    (fun p h k hk0 hk1 => gblk_apply m c t p h k hk0 hk1) j (((cfg0.win 2).blk t).view.emb j) ?_ ?_
  · show win0_2.index t 0 * 16 + 1 * (j 0).val = 16 * t.val + (j 0).val
    rw [e0]; omega
  · show win0_2.index t 1 * 16 + 1 * (j 1).val = (j 1).val
    rw [e1]; omega

/-- An index of the [512, 16] array is in point `t`'s block iff each coordinate is in the block's range on its axis. -/
theorem mem_blk (t : Fin cfg0.N) (i : S512x16.Idx) :
    i ∈ ((cfg0.win 2).blk t).view.set ↔ ∀ a : Fin 2, win0_2.index t a * S16x16.size a ≤ (i a).val
      ∧ (i a).val < win0_2.index t a * S16x16.size a + S16x16.size a := by
  show i ∈ ((View.whole main_v2).slice (win0_2.rect t)).set ↔ _
  rw [View.set_slice_whole, Rect.mem_set_unit]
  exact Iff.rfl

/-- The array of entropies after the run: `rowEntropy` of the two arrays the region finds, since the 32 blocks tile
    it (row `r` is in block `r / 16`). -/
theorem final_entropy (c : Dev nD) :
    (dats m 0 c).arrAt 2 cfg0.N = rowEntropy (V m c main_v0) (V m c main_v1) :=
  (dats m 0 c).arrAt_eq_of_cover 2 (rowEntropy (V m c main_v0) (V m c main_v1)) (fun t _ => flushed_eq m c t) fun i => by
    have hi0 : (i 0).val < 512 := (i 0).isLt
    have hi1 : (i 1).val < 16 := (i 1).isLt
    have hN : cfg0.N = 32 := N_0
    refine ⟨⟨(i 0).val / 16, by rw [hN]; omega⟩, flush0_2 _, ?_⟩
    obtain ⟨-, -, -, -, -, e0, e1⟩ := idx_facts ⟨(i 0).val / 16, by rw [hN]; omega⟩
    rw [mem_blk]
    intro a
    match a with
    | ⟨0, _⟩ =>
      show win0_2.index _ 0 * 16 ≤ (i 0).val ∧ (i 0).val < win0_2.index _ 0 * 16 + 16
      rw [e0]; show (i 0).val / 16 * 16 ≤ (i 0).val ∧ (i 0).val < (i 0).val / 16 * 16 + 16; omega
    | ⟨1, _⟩ =>
      show win0_2.index _ 1 * 16 ≤ (i 1).val ∧ (i 1).val < win0_2.index _ 1 * 16 + 16
      rw [e1]; omega

/-! ## The arrays the region finds, and the lines after it -/

/-- The region finds the attention weights with their two pixel axes flattened. -/
theorem X_eq (c : Dev nD) : (V m c main_v0 : S512x16x4096.Idx → Elt Ideal .f32)
    = shapeCast S512x16x4096 (m ((c : Thread nD τ).loc main_arg0)) shapeCasts_S512x16x64x64_S512x16x4096 := by
  show StableHlo.after hostOps0 (fun b => m (c, b)) (Proc.devRef .tc main_v0) = _
  after_results
  rfl

/-- The region finds the colour words with their two pixel axes flattened. -/
theorem G_eq (c : Dev nD) : (V m c main_v1 : S512x4096.Idx → Elt Ideal .i32)
    = shapeCast S512x4096 (m ((c : Thread nD τ).loc main_arg1)) shapeCasts_S512x64x64_S512x4096 := by
  show StableHlo.after hostOps0 (fun b => m (c, b)) (Proc.devRef .tc main_v1) = _
  after_results
  rfl

/-- The scalar both programs return, of the array of entropies: its sum from zero, over 8192. -/
def meanOf (E : FVec Ideal S512x16 .f32) : FVec Ideal S_ .f32 :=
  Host.divf (Host.reduceAdd E (constant (F := Ideal) S_ .f32 0x00000000#32) reducesTo_S512x16_S_d0_1 h_S_)
    (constant (F := Ideal) S_ .f32 0x46000000#32)

/-- What the lines after the region leave in @main's result: the mean of the array of entropies. -/
theorem tail_eq (c : Dev nD) :
    Pipeline.afterTail₀ cfgs (dats m) 0 (V0 m) [hostOps1] c main_v4
      = meanOf (rowEntropy (V m c main_v0) (V m c main_v1)) := by
  unfold Pipeline.afterTail₀
  show StableHlo.after hostOps1 _ (Proc.devRef .tc main_v4) = _
  after_results
  unfold meanOf
  rw [show Pipeline.withArrays (cfgs 0).spec c (V0 m c) (fun w => (dats m 0 c).arrAt w (cfgs 0).N)
      (Proc.devRef .tc main_v2) = rowEntropy (V m c main_v0) (V m c main_v1) from
    (Pipeline.withArrays_arr spec0 launch0.win.arr_inj c _ _ 2).trans (final_entropy m c)]

/-- The result as a function of the two arguments. -/
def result (c : Dev nD) : FVec Ideal S_ .f32 :=
  meanOf (rowEntropy
    (shapeCast S512x16x4096 (m ((c : Thread nD τ).loc main_arg0)) shapeCasts_S512x16x64x64_S512x16x4096)
    (shapeCast S512x4096 (m ((c : Thread nD τ).loc main_arg1)) shapeCasts_S512x64x64_S512x4096))

/-- The run, read: @main's result ends at `result`, the arguments unchanged. -/
theorem run : θ_run defs (onTc (τ := τ) (main (F := Ideal))) ⟨m, fun _ => 0, ρ⟩ fun r => ∀ c : Dev nD,
      r.2.mem ((c.tc : Thread nD τ).loc main_v4) = result m c
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v4 (Pipeline.mem_restRefs_of main_v4 (by decide) (by decide))).trans
        ((tail_eq m c).trans (by unfold result; rw [X_eq, G_eq])),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.KernelIdeal.Hand

end
-- ==== Proof.RefValue.lean ====
/-
  The reference, read at one entry, at the ideal values.

  The reference builds the one-hot array of the colour words ([512, 4096, 10]: a cell's word compared with `0 … 9`, the
  condition converted to `0` or `1`), contracts it with the attention weights over the cells — entry `(b, s, c)` of the
  product is the weight of colour `c` in row `(b, s)`'s histogram (`hist_apply`) —, sums the ten colours from the initial
  value zero, adds `ε`, divides, adds `ε` again, takes the logarithm, multiplies, sums the colours again and negates:
  entry `(b, s)` is the entropy of the row's histogram (`entropy_eq`). The generated stage lemmas read each operation at an
  index; written here are the index equations between their composed index functions and plain coordinates, and the chain.
-/
import proofs.«131846_j90915867722048_1_alg».proof.Proof.Gen.ReferenceIdeal.Read
import proofs.«131846_j90915867722048_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Cert.ColourEntropy
open Idealize.ShloMosaic Idealize.ShloMosaic.ValueIdx
open scoped BigOperators

variable (x0 : (⟨S512x16x64x64, .f32⟩ : BufTy).Contents (Elt Ideal)) (x1 : (⟨S512x64x64, .i32⟩ : BufTy).Contents (Elt Ideal))

/-- The one-hot array at `(b, h, c)` is `1` when cell `h` of picture `b` has colour `c`, else `0`. -/
theorem onehot_apply (b : Fin 512) (h : Fin 4096) (c : Fin 10) :
    val_main_v2 (F := Ideal) x1 (ix3 b h c) = ind (val_main_v1 (F := Ideal) x1 (ix2 b h)) (BitVec.ofNat 32 c.val) := by
  rw [val_main_v2_apply, val_main_call0_v4_apply, val_main_call0_v2_apply, val_main_call0_v0_apply,
    val_main_call0_v3_apply, val_main_call0_v1_apply]
  have e : idx_main_call0_v0 (idx_main_call0_v2 (ix3 b h c)) = ix2 b h :=
    funext fun a => Fin.ext (by match a with | ⟨0, _⟩ => rfl | ⟨1, _⟩ => rfl)
  rw [e]
  exact uitofp_bit _

/-- The product of the weights with the one-hot array, at `(b, s, c)`, is the weight of colour `c` in row `(b, s)`. -/
theorem hist_apply (b : Fin 512) (s : Fin 16) (c : Fin 10) :
    val_main_v3 (F := Ideal) x0 x1 (ix3 b s c)
      = hist (fun h : Fin 4096 => val_main_v0 (F := Ideal) x0 (ix3 b s h))
          (fun h : Fin 4096 => val_main_v1 (F := Ideal) x1 (ix2 b h)) c := by
  rw [val_main_v3_apply]
  unfold hist
  refine Finset.sum_congr rfl fun k _ => ?_
  have el : lidx_main_v3 (ix3 b s c) k = ix3 b s k :=
    funext fun a => Fin.ext (by match a with | ⟨0, _⟩ => rfl | ⟨1, _⟩ => rfl | ⟨2, _⟩ => rfl)
  have er : ridx_main_v3 (ix3 b s c) k = ix3 b k c :=
    funext fun a => Fin.ext (by match a with | ⟨0, _⟩ => rfl | ⟨1, _⟩ => rfl | ⟨2, _⟩ => rfl)
  rw [el, er, onehot_apply]

/-- The histogram's total plus `ε`, laid along the colour axis, at `(b, s, c)`. -/
theorem total_apply (b : Fin 512) (s : Fin 16) (c : Fin 10) :
    val_main_v8 (F := Ideal) x0 x1 (ix3 b s c)
      = (∑ c' : Fin 10, hist (fun h : Fin 4096 => val_main_v0 (F := Ideal) x0 (ix3 b s h))
          (fun h : Fin 4096 => val_main_v1 (F := Ideal) x1 (ix2 b h)) c') + eps := by
  rw [val_main_v8_apply, val_main_v7_apply, val_main_v5_apply, val_main_v6_apply, val_main_cst_0_apply]
  have e : idx_main_v5 (idx_main_v8 (ix3 b s c)) = ix2 b s :=
    funext fun a => Fin.ext (by match a with | ⟨0, _⟩ => rfl | ⟨1, _⟩ => rfl)
  rw [e, val_main_v4_apply, val_main_cst_apply]
  show Ideal.ofBits .f32 0x00000000#32 + _ + Ideal.ofBits .f32 0x322BCC77#32 = _
  rw [Ideal.ofBits_zero_f32, zero_add]
  refine congrArg (· + eps) (Finset.sum_congr rfl fun c' _ => ?_)
  have e4 : idx_main_v4 (ix2 b s) c' = ix3 b s c' :=
    funext fun a => Fin.ext (by match a with | ⟨0, _⟩ => rfl | ⟨1, _⟩ => rfl | ⟨2, _⟩ => rfl)
  rw [e4, hist_apply]

/-- The negated sum, at `(b, s)`, is the entropy of row `(b, s)`'s histogram: the reference's array of entropies is
    `rowEntropy` of its two reshaped arguments. -/
theorem entropy_eq :
    val_main_v15 (F := Ideal) x0 x1 = rowEntropy (val_main_v0 (F := Ideal) x0) (val_main_v1 (F := Ideal) x1) := by
  funext i
  obtain ⟨b, s, rfl⟩ : ∃ (b : Fin 512) (s : Fin 16), i = ix2 b s := ⟨i 0, i 1, eq_ix2 i⟩
  rw [val_main_v15_apply, val_main_v14_apply, val_main_cst_2_apply]
  show -(Ideal.ofBits .f32 0x00000000#32 + _) = ent _
  rw [Ideal.ofBits_zero_f32, zero_add]
  unfold ent
  refine congrArg (fun t : EReal => -t) (Finset.sum_congr rfl fun c _ => ?_)
  have e14 : idx_main_v14 (ix2 b s) c = ix3 b s c :=
    funext fun a => Fin.ext (by match a with | ⟨0, _⟩ => rfl | ⟨1, _⟩ => rfl | ⟨2, _⟩ => rfl)
  rw [e14, val_main_v13_apply, val_main_v12_apply, val_main_v11_apply, val_main_v10_apply, val_main_cst_1_apply,
    val_main_v9_apply, total_apply, hist_apply]
  rfl

end Cert.ReferenceIdeal.RefValue

end
-- ==== Proof.lean ====
/-
  The certificate's proof: a Pallas kernel that computes the mean colour entropy of attention maps, against its jnp
  reference, over the extended reals.

  For every picture `b` and attention row `s`, both programs form the weighted histogram of the picture's 4096 cells
  over the ten colours `0 … 9` — colour `c` gets the total attention weight of the cells whose colour word is `c` —,
  normalise it by its total plus `ε`, and take its entropy `− Σ_c p_c · log (p_c + ε)`; the result is the mean of the
  512 · 16 entropies (their sum from zero, over 8192). The kernel forms each colour's weight as a masked lane sum,
  sixteen pictures per grid point, and writes one [16, 16] block of entropies per point; the reference contracts the
  weights with a one-hot array in one product. At the ideal values the two are the same function of the arguments,
  entry by entry: a masked lane sum and a row of the product with the one-hot array are the same finite sum, a
  condition widened and converted signed is the condition converted unsigned, and `0 − x = −x`. None of these needs the
  inputs finite, so the precondition is never opened.

  The three frames are the generated ones (the reference's is its generated run with the result dropped); the
  idealization rewrote nothing, so there is nothing to preserve; the value claim sets the kernel's run, read to the
  array of entropies and then through the host lines after the region, beside the reference's run read stage by stage.
-/
import proofs.«131846_j90915867722048_1_alg».proof.Defs
import proofs.«131846_j90915867722048_1_alg».proof.Proof.Gen.Kernel
import proofs.«131846_j90915867722048_1_alg».proof.Proof.Gen.Kernel.Skeleton
import proofs.«131846_j90915867722048_1_alg».proof.Proof.Gen.Kernel.Launch
import proofs.«131846_j90915867722048_1_alg».proof.Proof.Gen.Kernel.Points
import proofs.«131846_j90915867722048_1_alg».proof.Proof.Gen.Kernel.Frame
import proofs.«131846_j90915867722048_1_alg».proof.Proof.Gen.KernelIdeal
import proofs.«131846_j90915867722048_1_alg».proof.Proof.Gen.KernelIdeal.Skeleton
import proofs.«131846_j90915867722048_1_alg».proof.Proof.Gen.KernelIdeal.Launch
import proofs.«131846_j90915867722048_1_alg».proof.Proof.Gen.KernelIdeal.Points
import proofs.«131846_j90915867722048_1_alg».proof.Proof.Gen.KernelIdeal.Frame
import proofs.«131846_j90915867722048_1_alg».proof.Proof.Gen.ReferenceIdeal
import proofs.«131846_j90915867722048_1_alg».proof.Proof.Gen.Pre_finite_inputs
import proofs.«131846_j90915867722048_1_alg».proof.Proof.Gen.ReferenceIdeal.Run
import proofs.«131846_j90915867722048_1_alg».proof.Proof.Gen.ReferenceIdeal.Read
import proofs.«131846_j90915867722048_1_alg».proof.Proof.Block
import proofs.«131846_j90915867722048_1_alg».proof.Proof.RefValue
import Idealize.ShloMosaic.Adequacy
import Idealize.ShloMosaic.Init

noncomputable section

namespace Cert.Proof

open Idealize.ShloMosaic Idealize.SL.Sem

/-- The kernel runs and leaves its arguments alone, at the word level. -/
theorem frame_k : Cert.frame_Kernel := fun m ρ _ => Cert.Kernel.Gen.frame m ρ

/-- The same at the ideal values. -/
theorem frame_ki : Cert.frame_KernelIdeal := fun m ρ _ => Cert.KernelIdeal.Gen.frame m ρ

/-- The reference runs and leaves its arguments alone: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result is the mean of `rowEntropy` of its two arguments with their pixel axes flattened: its last
    two stages are the sum from zero and the quotient by 8192, over the array of entropies. -/
theorem ref_result (x0 : (⟨Cert.ReferenceIdeal.S512x16x64x64, .f32⟩ : BufTy).Contents (Elt Ideal))
    (x1 : (⟨Cert.ReferenceIdeal.S512x64x64, .i32⟩ : BufTy).Contents (Elt Ideal)) :
    Cert.ReferenceIdeal.Read.val_main_v17 (F := Ideal) x0 x1
      = Cert.KernelIdeal.Hand.meanOf (Cert.ColourEntropy.rowEntropy
          (shapeCast Cert.KernelIdeal.S512x16x4096 x0 Cert.KernelIdeal.Gen.shapeCasts_S512x16x64x64_S512x16x4096)
          (shapeCast Cert.KernelIdeal.S512x4096 x1 Cert.KernelIdeal.Gen.shapeCasts_S512x64x64_S512x4096)) := by
  unfold Cert.ReferenceIdeal.Read.val_main_v17 Cert.ReferenceIdeal.Read.val_main_v16
  rw [Cert.ReferenceIdeal.RefValue.entropy_eq]
  rfl

/-- From memories that agree on the arguments both programs end at the same scalar: the mean over all pictures and
    rows of the entropy of the row's colour histogram. -/
theorem algebraic : Cert.algebraic_KernelIdeal_ReferenceIdeal := by
  intro m ρ m' ρ' _ hagree
  refine ⟨fun c => Cert.KernelIdeal.Hand.result m c, Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, (hagree c).1, (hagree c).2]
  exact ref_result _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
